-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4096x1024 .f32) (main_arg1 : FVec F S1024x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .f32 = 32 ∨ (Rect.block (s := S1024x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Product.lean ====
/-
  The matrix product both programs compute, stated once over the literal shapes.

  For a 4096 × 1024 array `a` and a 1024 × 4096 array `b` of extended reals, entry (r, c) of the
  product is the sum over the 1024 positions k of `a (r, k) * b (k, c)`.  The sum is a sum in the
  commutative monoid of the extended reals, so no order or grouping of its terms matters, and
  nothing here needs the entries to be finite.
-/
import Idealize.ShloMosaic.PureOps.Ideal
import Idealize.ShloMosaic.Lib.ValueIdx

noncomputable section

open Idealize.ShloMosaic Idealize.ShloMosaic.ValueIdx
open scoped BigOperators

namespace Cert.Product

/-- Entry (r, c) of `a · b`: the sum over k of `a (r, k) * b (k, c)`. -/
def entry (a : (⟨2, ![4096, 1024]⟩ : Shape).Idx → EReal) (b : (⟨2, ![1024, 4096]⟩ : Shape).Idx → EReal)
    (r c : Fin 4096) : EReal :=
  ∑ k : Fin 1024, a (ix2 r k) * b (ix2 k c)

/-- The whole product, as an array over 4096 × 4096. -/
def prod (a : (⟨2, ![4096, 1024]⟩ : Shape).Idx → EReal) (b : (⟨2, ![1024, 4096]⟩ : Shape).Idx → EReal) :
    (⟨2, ![4096, 4096]⟩ : Shape).Idx → EReal :=
  fun i => entry a b (i 0) (i 1)

theorem prod_apply (a : (⟨2, ![4096, 1024]⟩ : Shape).Idx → EReal) (b : (⟨2, ![1024, 4096]⟩ : Shape).Idx → EReal)
    (r c : Fin 4096) : prod a b (ix2 r c) = ∑ k : Fin 1024, a (ix2 r k) * b (ix2 k c) := rfl

end Cert.Product

end
-- ==== Proof.RefProduct.lean ====
/-
  The reference computes the matrix product.

  The reference is one host contraction of the two argument arrays over the left array's columns and
  the right array's rows.  Read at an entry it is the sum over the 1024 contraction positions k of
  the left array at (row, k) times the right array at (k, column): exactly `Cert.Product.prod`.
-/
import proofs.«113319_j38276748542447_1_alg».proof.Proof.Gen.ReferenceIdeal.Read
import proofs.«113319_j38276748542447_1_alg».proof.Proof.Product

noncomputable section

open Idealize.ShloMosaic Idealize.ShloMosaic.ValueIdx
open scoped BigOperators

namespace Cert.ReferenceIdeal.RefProduct

open Cert.ReferenceIdeal Cert.ReferenceIdeal.Read

/-- The left operand's index at output entry `i` and position `k` is (row of `i`, `k`). -/
theorem left_index (i : S4096x4096.Idx) (k : Fin 1024) : lidx_main_v0 i k = ix2 (i 0) k :=
  funext fun a => Fin.ext (by match a with | ⟨0, _⟩ => rfl | ⟨1, _⟩ => rfl)

/-- The right operand's index at output entry `i` and position `k` is (`k`, column of `i`). -/
theorem right_index (i : S4096x4096.Idx) (k : Fin 1024) : ridx_main_v0 i k = ix2 k (i 1) :=
  funext fun a => Fin.ext (by match a with | ⟨0, _⟩ => rfl | ⟨1, _⟩ => rfl)

/-- The reference's one stage, at the extended reals, is the matrix product of its operands. -/
theorem stage_eq_prod (a : (⟨S4096x1024, .f32⟩ : BufTy).Contents (Elt Ideal))
    (b : (⟨S1024x4096, .f32⟩ : BufTy).Contents (Elt Ideal)) :
    val_main_v0 (F := Ideal) a b = Cert.Product.prod a b := by
  funext i
  rw [val_main_v0_apply]
  show _ = ∑ k : Fin 1024, a (ix2 (i 0) k) * b (ix2 k (i 1))
  refine Finset.sum_congr rfl fun k _ => ?_
  rw [left_index, right_index]
  rfl

end Cert.ReferenceIdeal.RefProduct

end
-- ==== Proof.BlockEntry.lean ====
/-
  What the kernel's body computes from one pair of blocks, read at an entry.

  The body loads a 512 × 1024 block `x` of the left matrix and a 1024 × 512 block `y` of the right
  matrix, narrows both to bf16 (the identity on extended reals), and multiplies them into a zero
  accumulator.  So entry (p, q) of what it stores is the sum over the 1024 positions k of
  `x (p, k) * y (k, q)`: the zero accumulator adds nothing, and the matrix unit's contraction index,
  a one-axis index, is re-indexed by its one coordinate.
-/
import proofs.«113319_j38276748542447_1_alg».proof.Proof.Gen.KernelIdeal.Skeleton
import proofs.«113319_j38276748542447_1_alg».proof.Proof.Product
import Idealize.ShloMosaic.Lib.ValueIdx
import Idealize.ShloMosaic.PureOps.Ideal.Laws

noncomputable section

open Idealize.ShloMosaic Idealize.ShloMosaic.ValueIdx
open scoped BigOperators

namespace Cert.KernelIdeal.BlockEntry

open Cert.KernelIdeal Cert.KernelIdeal.Gen

/-! ## The operand indices of the block product, axis by axis -/

/-- The left operand is read in the row of the output entry. -/
theorem lhs_row (j : S512x512.Idx) (u : dot_S512x1024_S1024x512_S512x512_1_0_0_1_n_n.contr.Idx) :
    (dot_S512x1024_S1024x512_S512x512_1_0_0_1_n_n.lhsIdx j u 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

/-- The left operand's column is the contraction position. -/
theorem lhs_col (j : S512x512.Idx) (u : dot_S512x1024_S1024x512_S512x512_1_0_0_1_n_n.contr.Idx) :
    (dot_S512x1024_S1024x512_S512x512_1_0_0_1_n_n.lhsIdx j u 1).val = (u ⟨0, by decide⟩).val :=
  dot_S512x1024_S1024x512_S512x512_1_0_0_1_n_n.lhsIdx_val_of_single rfl j u

/-- The right operand's row is the contraction position. -/
theorem rhs_row (j : S512x512.Idx) (u : dot_S512x1024_S1024x512_S512x512_1_0_0_1_n_n.contr.Idx) :
    (dot_S512x1024_S1024x512_S512x512_1_0_0_1_n_n.rhsIdx j u 0).val = (u ⟨0, by decide⟩).val :=
  dot_S512x1024_S1024x512_S512x512_1_0_0_1_n_n.rhsIdx_val_of_single rfl j u

/-- The right operand is read in the column of the output entry. -/
theorem rhs_col (j : S512x512.Idx) (u : dot_S512x1024_S1024x512_S512x512_1_0_0_1_n_n.contr.Idx) :
    (dot_S512x1024_S1024x512_S512x512_1_0_0_1_n_n.rhsIdx j u 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-! ## The stored block at an entry -/

/-- Entry (p, q) of the block the body stores is the inner product of row p of the left block with
    column q of the right block. -/
theorem stored_apply (x : Vec Ideal S512x1024 .f32) (y : Vec Ideal S1024x512 .f32) (p q : Fin 512) :
    k0_pay1 (F := Ideal) x y (ix2 p q) = ∑ k : Fin 1024, x (ix2 p k) * y (ix2 k q) := by
  unfold k0_pay1
  show FloatOps.matmul dot_S512x1024_S1024x512_S512x512_1_0_0_1_n_n none
      (truncf (F := Ideal) .bf16 x bitsLt_bf16_f32) (truncf (F := Ideal) .bf16 y bitsLt_bf16_f32)
      (constant (F := Ideal) S512x512 .f32 0x00000000#32) (ix2 p q) = _
  rw [Ideal.matmul_constant_zero_apply,
    ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q)
      ((contrEquiv1 dot_S512x1024_S1024x512_S512x512_1_0_0_1_n_n 1024 rfl rfl).symm k) = ix2 p k :=
    funext fun a => Fin.ext (by
      match a with
      | ⟨0, _⟩ => exact lhs_row _ _
      | ⟨1, _⟩ => exact (lhs_col _ _).trans hk)
  have er : dot_S512x1024_S1024x512_S512x512_1_0_0_1_n_n.rhsIdx (ix2 p q)
      ((contrEquiv1 dot_S512x1024_S1024x512_S512x512_1_0_0_1_n_n 1024 rfl rfl).symm k) = ix2 k q :=
    funext fun a => Fin.ext (by
      match a with
      | ⟨0, _⟩ => exact (rhs_row _ _).trans hk
      | ⟨1, _⟩ => exact rhs_col _ _)
  rw [el, er]
  rfl

/-- If row p of the left block is row r of the left array, and column q of the right block is column c
    of the right array, then entry (p, q) of the stored block is entry (r, c) of the product of the arrays. -/
theorem stored_eq_prod (A : (⟨2, ![4096, 1024]⟩ : Shape).Idx → EReal) (B : (⟨2, ![1024, 4096]⟩ : Shape).Idx → EReal)
    (x : Vec Ideal S512x1024 .f32) (y : Vec Ideal S1024x512 .f32) (r c : Fin 4096) (p q : Fin 512)
    (hx : ∀ k : Fin 1024, x (ix2 p k) = A (ix2 r k)) (hy : ∀ k : Fin 1024, y (ix2 k q) = B (ix2 k c)) :
    k0_pay1 (F := Ideal) x y (ix2 p q) = Cert.Product.prod A B (ix2 r c) := by
  rw [stored_apply, Cert.Product.prod_apply]
  exact Finset.sum_congr rfl fun k _ => by rw [hx k, hy k]

end Cert.KernelIdeal.BlockEntry

end
-- ==== Proof.KernelProduct.lean ====
/-
  The kernel's result array is the matrix product of its arguments.

  The grid has 8 × 8 points.  At point (bi, bj) the kernel reads rows bi·512 … bi·512 + 511 of the left
  array (all 1024 columns) and columns bj·512 … bj·512 + 511 of the right array (all 1024 rows), and
  writes block (bi, bj) of the result.  Entry (p, q) of that block is the inner product of row
  bi·512 + p of the left array with column bj·512 + q of the right array, which is entry
  (bi·512 + p, bj·512 + q) of the product.  The 64 blocks tile the 4096 × 4096 result, so after the run
  the whole result array is the product.
-/
import proofs.«113319_j38276748542447_1_alg».proof.Proof.Gen.KernelIdeal.Value
import proofs.«113319_j38276748542447_1_alg».proof.Proof.BlockEntry
import proofs.«113319_j38276748542447_1_alg».proof.Proof.Product
import Idealize.ShloMosaic.Lib.Pipeline.Value
import Idealize.ShloMosaic.Lib.ValueIdx

set_option maxRecDepth 16384

noncomputable section

namespace Cert.KernelIdeal.ArrayProduct

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The three index maps over the 64 grid points: the left window follows the output's block row and
    stays at block column 0, the right window stays at block row 0 and follows the output's block column,
    and the output's block indices are below 8. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 7 :=
  (by decide +kernel : ∀ t : Fin grid0.N, _)

/-- Every one of the 8 × 8 output blocks is some grid point's. -/
theorem index_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- Row p of the left window's block at point t is row (block row · 512 + p) of the left array. -/
theorem left_block_row (c : Dev nD) (t : Fin cfg0.N) (p : Fin 512) (r : Fin 4096)
    (hr : r.val = win0_2.index t (0 : Fin 2) * 512 + p.val) (k : Fin 1024) :
    iblk m c 0 t (ix2 p k) = V m c main_arg0 (ix2 r k) := by
  obtain ⟨e0, e1, e2, e3, e4, e5⟩ := index_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- Column q of the right window's block at point t is column (block column · 512 + q) of the right array. -/
theorem right_block_col (c : Dev nD) (t : Fin cfg0.N) (q : Fin 512) (s : Fin 4096)
    (hs : s.val = win0_2.index t (1 : Fin 2) * 512 + q.val) (k : Fin 1024) :
    iblk m c 1 t (ix2 k q) = V m c main_arg1 (ix2 k s) := by
  obtain ⟨e0, e1, e2, e3, e4, e5⟩ := index_facts t
  show V m c main_arg1 (((cfg0.win 1).blk t).view.emb (ix2 k q)) = V m c main_arg1 (ix2 k s)
  refine congrArg (V m c main_arg1) (funext fun a => Fin.ext ?_)
  match a with
  | ⟨0, _⟩ => show win0_1.index t (0 : Fin 2) * 1024 + 1 * k.val = k.val; omega
  | ⟨1, _⟩ => show win0_1.index t (1 : Fin 2) * 512 + 1 * q.val = s.val; omega

/-- What point t writes back is block t of the product of the argument arrays. -/
theorem flushed_eq (c : Dev nD) (t : Fin cfg0.N) :
    (dats m 0 c).flushed 2 t
      = ((cfg0.win 2).blk t).view.read (Elt Ideal) (Cert.Product.prod (V m c main_arg0) (V m c main_arg1)) := by
  rw [Value.flushed2]
  unfold out0_2
  rw [View.canon_unit_zero origin]
  simp only [View.ld_unit_zero (S := S512x1024) origin, View.ld_unit_zero (S := S1024x512) origin]
  obtain ⟨e0, e1, e2, e3, e4, e5⟩ := index_facts t
  funext j
  have hp : (j 0).val < 512 := (j 0).isLt
  have hq : (j 1).val < 512 := (j 1).isLt
  show k0_pay1 (F := Ideal) (iblk m c 0 t) (iblk m c 1 t) j
    = Cert.Product.prod (V m c main_arg0) (V m c main_arg1) (((cfg0.win 2).blk t).view.emb j)
  have hi : ((cfg0.win 2).blk t).view.emb j
      = ix2 (⟨win0_2.index t (0 : Fin 2) * 512 + (j 0).val, by omega⟩ : Fin 4096)
          (⟨win0_2.index t (1 : Fin 2) * 512 + (j 1).val, by omega⟩ : Fin 4096) :=
    funext fun a => Fin.ext (by
      match a with
      | ⟨0, _⟩ => show win0_2.index t (0 : Fin 2) * 512 + 1 * (j 0).val = win0_2.index t (0 : Fin 2) * 512 + (j 0).val; omega
      | ⟨1, _⟩ => show win0_2.index t (1 : Fin 2) * 512 + 1 * (j 1).val = win0_2.index t (1 : Fin 2) * 512 + (j 1).val; omega)
  refine (congrArg (k0_pay1 (F := Ideal) (iblk m c 0 t) (iblk m c 1 t)) (eq_ix2 j)).trans ?_
  refine Eq.trans ?_ (congrArg (Cert.Product.prod (V m c main_arg0) (V m c main_arg1)) hi).symm
  exact BlockEntry.stored_eq_prod (V m c main_arg0) (V m c main_arg1) (iblk m c 0 t) (iblk m c 1 t) _ _ (j 0) (j 1)
    (left_block_row m c t (j 0) _ rfl) (right_block_col m c t (j 1) _ rfl)

/-- An index of the result array is in point t's block iff each coordinate is in the block's range. -/
theorem mem_block (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The blocks tile the result: entry (r, s) lies in the block of the point whose block indices are
    (r / 512, s / 512). -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := index_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- After the run the result array is the product of the argument arrays as launched. -/
theorem final (c : Dev nD) :
    (dats m 0 c).arrAt 2 cfg0.N
      = Cert.Product.prod (m ((c : Thread nD τ).loc main_arg0)) (m ((c : Thread nD τ).loc main_arg1)) :=
  (dats m 0 c).arrAt_eq_of_cover 2 (Cert.Product.prod (V m c main_arg0) (V m c main_arg1))
    (fun t _ => flushed_eq m c t) covered

/-- Every weakly fair execution of the kernel terminates with the result array at the product of the
    arguments and the arguments unchanged. -/
theorem run : θ_run defs (onTc (τ := τ) (main (F := Ideal))) ⟨m, fun _ => 0, ρ⟩ fun r => ∀ c : Dev nD,
      r.2.mem ((c : Thread nD τ).loc main_v0)
        = Cert.Product.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayProduct

end
-- ==== Proof.lean ====
/-
  A tiled matrix product against `jnp.matmul`: f32[4096, 1024] · f32[1024, 4096].

  The kernel walks an 8 × 8 grid.  At point (bi, bj) it multiplies a 512 × 1024 block of rows of the
  left matrix by a 1024 × 512 block of columns of the right matrix, with the whole contraction inside
  the block, and writes block (bi, bj) of the result.  Its operands are narrowed to bf16 before the
  product; over the extended reals a change of format is the identity, so each stored entry is the exact
  inner product of a row of the left matrix with a column of the right matrix.  The reference is one
  host contraction, whose entry (r, c) is the same inner product.  Both are sums over the 1024
  contraction positions in the commutative monoid of the extended reals, so the two results agree entry
  by entry with no use of the inputs' finiteness.

  The modules:
  * `Proof/Product.lean` states the product once, over the literal shapes;
  * `Proof/RefProduct.lean` reads the reference's contraction at an entry: it is the product;
  * `Proof/BlockEntry.lean` reads the kernel's stored block at an entry: an inner product of a block
    row with a block column;
  * `Proof/KernelProduct.lean` places each block in the arrays and shows that the 64 blocks tile the
    result, so the kernel's result array is the product.
  The frames of the two kernel programs are the generated ones; the reference's frame is its generated
  run with the result dropped; the idealization rewrote nothing, so `preserves` is trivial.
-/
import proofs.«113319_j38276748542447_1_alg».proof.Defs
import proofs.«113319_j38276748542447_1_alg».proof.Proof.Gen.Kernel
import proofs.«113319_j38276748542447_1_alg».proof.Proof.Gen.Kernel.Skeleton
import proofs.«113319_j38276748542447_1_alg».proof.Proof.Gen.Kernel.Launch
import proofs.«113319_j38276748542447_1_alg».proof.Proof.Gen.Kernel.Points
import proofs.«113319_j38276748542447_1_alg».proof.Proof.Gen.Kernel.Frame
import proofs.«113319_j38276748542447_1_alg».proof.Proof.Gen.KernelIdeal
import proofs.«113319_j38276748542447_1_alg».proof.Proof.Gen.KernelIdeal.Skeleton
import proofs.«113319_j38276748542447_1_alg».proof.Proof.Gen.KernelIdeal.Launch
import proofs.«113319_j38276748542447_1_alg».proof.Proof.Gen.KernelIdeal.Points
import proofs.«113319_j38276748542447_1_alg».proof.Proof.Gen.KernelIdeal.Frame
import proofs.«113319_j38276748542447_1_alg».proof.Proof.Gen.ReferenceIdeal
import proofs.«113319_j38276748542447_1_alg».proof.Proof.Gen.Pre_finite_inputs
import proofs.«113319_j38276748542447_1_alg».proof.Proof.Gen.KernelIdeal.Value
import proofs.«113319_j38276748542447_1_alg».proof.Proof.Gen.ReferenceIdeal.Run
import proofs.«113319_j38276748542447_1_alg».proof.Proof.Gen.ReferenceIdeal.Read
import proofs.«113319_j38276748542447_1_alg».proof.Proof.Product
import proofs.«113319_j38276748542447_1_alg».proof.Proof.RefProduct
import proofs.«113319_j38276748542447_1_alg».proof.Proof.BlockEntry
import proofs.«113319_j38276748542447_1_alg».proof.Proof.KernelProduct
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says of the result dropped, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two matrices, the kernel's result array and the reference's result
    both end at the product of the matrices. -/
theorem algebraic : Cert.algebraic_KernelIdeal_ReferenceIdeal := by
  intro m ρ m' ρ' _ hagree
  refine ⟨_, Cert.KernelIdeal.ArrayProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefProduct.stage_eq_prod, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
